-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S8388608 : Shape := ⟨1, ![8388608]⟩
abbrev S131072 : Shape := ⟨1, ![131072]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S131072 : S_.BroadcastsInDim S131072 (![] : Fin 0 → Fin S131072.rank)
  reducesTo_S131072_S_d0 : S131072.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S8388608 32) (main_arg2 : FVec F S131072 .f32) (main_arg3 : FVec F S131072 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S131072 .f32 := Host.absf main_arg2
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  let main_v9 : FVec F S131072 .f32 := Host.absf main_arg3
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S8388608 : Shape := ⟨1, ![8388608]⟩
abbrev S131072 : Shape := ⟨1, ![131072]⟩
abbrev S4096 : Shape := ⟨1, ![4096]⟩
abbrev S8192x4096 : Shape := ⟨2, ![8192, 4096]⟩
abbrev S4096x2048 : Shape := ⟨2, ![4096, 2048]⟩
abbrev S4096x32 : Shape := ⟨2, ![4096, 32]⟩
abbrev S1024x512 : Shape := ⟨2, ![1024, 512]⟩
abbrev S1024x256 : Shape := ⟨2, ![1024, 256]⟩
abbrev S1024x32 : Shape := ⟨2, ![1024, 32]⟩
abbrev S1024 : Shape := ⟨1, ![1024]⟩
abbrev S1024x1024 : Shape := ⟨2, ![1024, 1024]⟩
abbrev S1024x256x1 : Shape := ⟨3, ![1024, 256, 1]⟩
abbrev S1024x256x2 : Shape := ⟨3, ![1024, 256, 2]⟩
abbrev S1024x4 : Shape := ⟨2, ![1024, 4]⟩
abbrev S1024x4x1 : Shape := ⟨3, ![1024, 4, 1]⟩
abbrev S1024x4x128 : Shape := ⟨3, ![1024, 4, 128]⟩
abbrev S1x1024 : Shape := ⟨2, ![1, 1024]⟩

abbrev nBuf : Space → Nat
  | .hbm => 11
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S131072, .f32⟩
  | .hbm, ⟨3, _⟩ => ⟨S131072, .f32⟩
  | .hbm, ⟨4, _⟩ => ⟨S4096, .f32⟩
  | .hbm, ⟨5, _⟩ => ⟨S8192x4096, .f32⟩
  | .hbm, ⟨6, _⟩ => ⟨S4096x2048, .i32⟩
  | .hbm, ⟨7, _⟩ => ⟨S4096x32, .f32⟩
  | .hbm, ⟨8, _⟩ => ⟨S4096x32, .f32⟩
  | .hbm, ⟨9, _⟩ => ⟨S8192x4096, .f32⟩
  | .hbm, ⟨10, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x256, .i32⟩
  | .local _ .vmem, ⟨3, _⟩ => ⟨S1024x256, .i32⟩
  | .local _ .vmem, ⟨4, _⟩ => ⟨S1024x32, .f32⟩
  | .local _ .vmem, ⟨5, _⟩ => ⟨S1024x32, .f32⟩
  | .local _ .vmem, ⟨6, _⟩ => ⟨S1024x32, .f32⟩
  | .local _ .vmem, ⟨7, _⟩ => ⟨S1024x32, .f32⟩
  | .local _ .vmem, ⟨8, _⟩ => ⟨S1024, .f32⟩
  | .local _ .vmem, ⟨9, _⟩ => ⟨S1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def k0_mult1 (i : grid0.Coords) : BitVec 32 :=
  let arg2 : BitVec 32 := BitVec.ofNat 32 (i 2).val
  let c4_i32 : BitVec 32 := 4#32
  let v3 : BitVec 32 := Scalar.muli arg2 c4_i32
  v3
def k0_off1 (i : grid0.Coords) : Fin 2 → Nat :=
  let c0_4 : Index := 0#32
  let arg2 : BitVec 32 := BitVec.ofNat 32 (i 2).val
  let c4_i32 : BitVec 32 := 4#32
  let v3 : BitVec 32 := Scalar.muli arg2 c4_i32
  let v4 : BitVec 32 := v3
  let v19 : Index := Scalar.indexCast v4
  ![0, v19.toNat]
def k0_cond2 (i : grid0.Coords) : BitVec 1 :=
  let arg2 : BitVec 32 := BitVec.ofNat 32 (i 2).val
  let c7_i32 : BitVec 32 := 7#32
  let v45 : BitVec 1 := Scalar.cmpi .eq arg2 c7_i32
  let v46 : BitVec 32 := Scalar.extui v45
  let c0_i32_12 : BitVec 32 := 0#32
  let v47 : BitVec 1 := Scalar.cmpi .ne v46 c0_i32_12
  v47

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  shapeCasts_S8388608_S4096x2048 : S8388608.ShapeCasts S4096x2048
  shapeCasts_S131072_S4096x32 : S131072.ShapeCasts S4096x32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  shapeCasts_S1024x256_S1024x256x1 : S1024x256.ShapeCasts S1024x256x1
  concatenates_S1024x256x1_S1024x256x1_S1024x256x2_d2 : Shape.Concatenates [S1024x256x1, S1024x256x1] S1024x256x2 2
  shapeCasts_S1024x256x2_S1024x512 : S1024x256x2.ShapeCasts S1024x512
  h_S1024x4 : 0 < S1024x4.numel
  shapeCasts_S1024x4_S1024x4 : S1024x4.ShapeCasts S1024x4
  shapeCasts_S1024x4_S1024x4x1 : S1024x4.ShapeCasts S1024x4x1
  shapeCasts_S1024x4x1_S1024x4x1 : S1024x4x1.ShapeCasts S1024x4x1
  broadcasts_S1024x4x1_S1024x4x128 : S1024x4x1.Broadcasts S1024x4x128
  shapeCasts_S1024x4x128_S1024x512 : S1024x4x128.ShapeCasts S1024x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S8192x4096_S4x2048x4096 : S8192x4096.ShapeCasts S4x2048x4096
  dot_S1024x512_S1024x512_S1024x1024_1_1_0_0_n_n_wf : DotDims.WF S1024x512 S1024x512 S1024x1024 [1] [1] [0] [0] [] []
  hrank0 : 0 < grid0.rank
  k0_mult1_dvd : ∀ i : grid0.Coords, 4 ∣ (k0_mult1 i).toNat
  k0_off1_inb : ∀ i : grid0.Coords, ∀ a, (k0_off1 i) a + S1024x4.size a ≤ S1024x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x2048.size a
  hwx0_1 : ∀ i : grid0.Coords, EltTy.bits .i32 = 32 ∨ (Rect.block (s := S4096x2048) S1024x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S4096x32.size a
  hwx0_2 : ∀ i : grid0.Coords, EltTy.bits .f32 = 32 ∨ (Rect.block (s := S4096x32) S1024x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S4096x32.size a
  hwx0_3 : ∀ i : grid0.Coords, EltTy.bits .f32 = 32 ∨ (Rect.block (s := S4096x32) S1024x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S4096.size a
  hwx0_4 : ∀ i : grid0.Coords, EltTy.bits .f32 = 32 ∨ (Rect.block (s := S4096) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S8388608 : Shape := ⟨1, ![8388608]⟩
abbrev S131072 : Shape := ⟨1, ![131072]⟩
abbrev S4096 : Shape := ⟨1, ![4096]⟩
abbrev S_ : Shape := ⟨0, ![]⟩
abbrev S8388608x1 : Shape := ⟨2, ![8388608, 1]⟩
abbrev S8388608x2 : Shape := ⟨2, ![8388608, 2]⟩
abbrev S16777216 : Shape := ⟨1, ![16777216]⟩
abbrev S131072x128 : Shape := ⟨2, ![131072, 128]⟩
abbrev S131072x1 : Shape := ⟨2, ![131072, 1]⟩
abbrev S4096x4096 : Shape := ⟨2, ![4096, 4096]⟩
abbrev S1x1x4096 : Shape := ⟨3, ![1, 1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S131072, .f32⟩
  | .hbm, ⟨3, _⟩ => ⟨S131072, .f32⟩
  | .hbm, ⟨4, _⟩ => ⟨S4096, .f32⟩
  | .hbm, ⟨5, _⟩ => ⟨S_, .i32⟩
  | .hbm, ⟨6, _⟩ => ⟨S8388608, .i32⟩
  | .hbm, ⟨7, _⟩ => ⟨S8388608, .i32⟩
  | .hbm, ⟨8, _⟩ => ⟨S_, .i32⟩
  | .hbm, ⟨9, _⟩ => ⟨S8388608, .i32⟩
  | .hbm, ⟨10, _⟩ => ⟨S8388608, .i32⟩
  | .hbm, ⟨11, _⟩ => ⟨S_, .i32⟩
  | .hbm, ⟨12, _⟩ => ⟨S8388608, .i32⟩
  | .hbm, ⟨13, _⟩ => ⟨S8388608, .i32⟩
  | .hbm, ⟨14, _⟩ => ⟨S8388608x1, .i32⟩
  | .hbm, ⟨15, _⟩ => ⟨S8388608x1, .i32⟩
  | .hbm, ⟨16, _⟩ => ⟨S8388608x2, .i32⟩
  | .hbm, ⟨17, _⟩ => ⟨S16777216, .i32⟩
  | .hbm, ⟨18, _⟩ => ⟨S16777216, .f32⟩
  | .hbm, ⟨19, _⟩ => ⟨S131072x128, .f32⟩
  | .hbm, ⟨20, _⟩ => ⟨S131072x1, .f32⟩
  | .hbm, ⟨21, _⟩ => ⟨S131072x128, .f32⟩
  | .hbm, ⟨22, _⟩ => ⟨S131072x128, .f32⟩
  | .hbm, ⟨23, _⟩ => ⟨S131072x1, .f32⟩
  | .hbm, ⟨24, _⟩ => ⟨S131072x128, .f32⟩
  | .hbm, ⟨25, _⟩ => ⟨S131072x128, .f32⟩
  | .hbm, ⟨26, _⟩ => ⟨S16777216, .f32⟩
  | .hbm, ⟨27, _⟩ => ⟨S4096x4096, .f32⟩
  | .hbm, ⟨28, _⟩ => ⟨S4x2048x4096, .f32⟩
  | .hbm, ⟨29, _⟩ => ⟨S1x1x4096, .f32⟩
  | .hbm, ⟨30, _⟩ => ⟨S4x2048x4096, .f32⟩
  | .hbm, ⟨31, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  shapeCasts_S16777216_S131072x128 : S16777216.ShapeCasts S131072x128
  bcast_S131072_S131072x1_0 : S131072.BroadcastsInDim S131072x1 (![0] : Fin 1 → Fin S131072x1.rank)
  bcast_S131072x1_S131072x128_0_1 : S131072x1.BroadcastsInDim S131072x128 (![0, 1] : Fin 2 → Fin S131072x128.rank)
  shapeCasts_S131072x128_S16777216 : S131072x128.ShapeCasts S16777216
  shapeCasts_S16777216_S4096x4096 : S16777216.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The mathematics of the quantised linear layer, with no program in sight.

  A weight matrix of 4096 x 4096 entries is stored as 4-bit fields, two to a 32-bit word (the even column in bits
  0-3, the odd column in bits 4-7 of word `o * 2048 + k / 2`), and is dequantised group by group: 128 consecutive
  entries of the row-major matrix share one scale and one offset, so entry (o, k) is
  `field * scale (o * 32 + k / 128) + offset (o * 32 + k / 128)`.  The layer is `x · Wᵀ + bias`:
  `out (b, s, o) = (∑ k < 4096, x (b, s, k) * W (o, k)) + bias o`, over the extended reals.

  Arrays are read at natural-number coordinates (`rd1`, `rd2`, `rd3`: the entry when the coordinates are in range,
  a fixed value otherwise), so that two reads agree as soon as their coordinates agree as numbers.  The one law of
  sums used is that a sum over `nb * w` consecutive terms is the sum over `nb` blocks of `w` terms; it holds in any
  commutative monoid, so no finiteness is asked of the entries.
-/
import Idealize.ShloMosaic.PureOps.Ideal
import Idealize.ShloMosaic.PureOps.Ideal.Laws
import Idealize.ShloMosaic.Lib.ValueIdx
import Idealize.ShloMosaic.Lib.KernelVsHost

noncomputable section

namespace QLinear

open Idealize.ShloMosaic Idealize.ShloMosaic.ValueIdx

/-! ## Reading an array at natural-number coordinates -/

/-- Entry `k` of a vector, `d` out of range. -/
def rd1 {α : Type} {n : ℕ} (d : α) (A : (⟨1, ![n]⟩ : Shape).Idx → α) (k : ℕ) : α :=
  if h : k < n then A (ix1 ⟨k, h⟩) else d

/-- Entry `(r, k)` of a matrix, `d` out of range. -/
def rd2 {α : Type} {n0 n1 : ℕ} (d : α) (A : (⟨2, ![n0, n1]⟩ : Shape).Idx → α) (r k : ℕ) : α :=
  if h : r < n0 ∧ k < n1 then A (ix2 ⟨r, h.1⟩ ⟨k, h.2⟩) else d

/-- Entry `(b, r, k)` of a rank-3 array, `d` out of range. -/
def rd3 {α : Type} {n0 n1 n2 : ℕ} (d : α) (A : (⟨3, ![n0, n1, n2]⟩ : Shape).Idx → α) (b r k : ℕ) : α :=
  if h : b < n0 ∧ r < n1 ∧ k < n2 then A (ix3 ⟨b, h.1⟩ ⟨r, h.2.1⟩ ⟨k, h.2.2⟩) else d

theorem rd1_eq {α : Type} {n : ℕ} (d : α) (A : (⟨1, ![n]⟩ : Shape).Idx → α) (j : (⟨1, ![n]⟩ : Shape).Idx) :
    A j = rd1 d A (j 0).val := by
  unfold rd1
  rw [dif_pos (show (j 0).val < n from (j 0).isLt)]
  exact congrArg A (eq_ix1 j)

theorem rd2_eq {α : Type} {n0 n1 : ℕ} (d : α) (A : (⟨2, ![n0, n1]⟩ : Shape).Idx → α) (j : (⟨2, ![n0, n1]⟩ : Shape).Idx) :
    A j = rd2 d A (j 0).val (j 1).val := by
  unfold rd2
  rw [dif_pos (show (j 0).val < n0 ∧ (j 1).val < n1 from ⟨(j 0).isLt, (j 1).isLt⟩)]
  exact congrArg A (eq_ix2 j)

theorem rd3_eq {α : Type} {n0 n1 n2 : ℕ} (d : α) (A : (⟨3, ![n0, n1, n2]⟩ : Shape).Idx → α)
    (j : (⟨3, ![n0, n1, n2]⟩ : Shape).Idx) : A j = rd3 d A (j 0).val (j 1).val (j 2).val := by
  unfold rd3
  rw [dif_pos (show (j 0).val < n0 ∧ (j 1).val < n1 ∧ (j 2).val < n2 from ⟨(j 0).isLt, (j 1).isLt, (j 2).isLt⟩)]
  exact congrArg A (eq_ix3 j)

/-- Two arrays that agree at every in-range pair of coordinates are equal. -/
theorem ext_rd2 {α : Type} {n0 n1 : ℕ} (d : α) (A A' : (⟨2, ![n0, n1]⟩ : Shape).Idx → α)
    (h : ∀ r k, r < n0 → k < n1 → rd2 d A r k = rd2 d A' r k) : A = A' := by
  funext j
  rw [rd2_eq d A j, rd2_eq d A' j]
  exact h _ _ (j 0).isLt (j 1).isLt

/-! ## The packed weights -/

/-- Bits 0-3 of a word. -/
def loNib (w : BitVec 32) : BitVec 32 := IntOp.andi w 15#32
/-- Bits 4-7 of a word: the arithmetic shift right by four, then the low four bits. -/
def hiNib (w : BitVec 32) : BitVec 32 := IntOp.andi (IntOp.shrsi .vector w 4#32) 15#32
/-- The 4-bit field of column `k`: the low one for an even column, the high one for an odd column. -/
def nib (w : BitVec 32) (k : ℕ) : BitVec 32 := if k % 2 = 0 then loNib w else hiNib w

theorem nib_congr (w : BitVec 32) {k k' : ℕ} (h : k % 2 = k' % 2) : nib w k = nib w k' := by
  unfold nib; rw [h]

/-- The field as an extended real: the integer it denotes. -/
def field (w : BitVec 32) (k : ℕ) : EReal := FloatOps.sitofp (F := Ideal) .f32 (nib w k)

theorem field_congr (w : BitVec 32) {k k' : ℕ} (h : k % 2 = k' % 2) : field w k = field w k' := by
  unfold field; rw [nib_congr w h]

abbrev SX : Shape := ⟨3, ![4, 2048, 4096]⟩
abbrev SP : Shape := ⟨1, ![8388608]⟩
abbrev SG : Shape := ⟨1, ![131072]⟩
abbrev SB : Shape := ⟨1, ![4096]⟩

/-- The dequantised weight `W (o, k)`. -/
def wgt (P : SP.Idx → BitVec 32) (SC OF : SG.Idx → EReal) (o k : ℕ) : EReal :=
  field (rd1 0#32 P (o * 2048 + k / 2)) k * rd1 0 SC (o * 32 + k / 128) + rd1 0 OF (o * 32 + k / 128)

/-- The layer: `out (b, s, o) = (∑ k < 4096, x (b, s, k) * W (o, k)) + bias o`. -/
def dense (X : SX.Idx → EReal) (P : SP.Idx → BitVec 32) (SC OF : SG.Idx → EReal) (B : SB.Idx → EReal) :
    SX.Idx → EReal :=
  fun i => (∑ k ∈ Finset.range 4096, rd3 0 X (i 0).val (i 1).val k * wgt P SC OF (i 2).val k) + rd1 0 B (i 2).val

/-! ## A sum over consecutive blocks -/

/-- A sum of `nb * w` consecutive terms is the sum over `nb` blocks of `w` consecutive terms. -/
theorem sum_blocks {M : Type} [AddCommMonoid M] (f : ℕ → M) (w : ℕ) : ∀ nb : ℕ,
    ∑ k ∈ Finset.range (nb * w), f k = ∑ b ∈ Finset.range nb, ∑ j ∈ Finset.range w, f (b * w + j)
  | 0 => by simp
  | nb + 1 => by
    rw [Nat.succ_mul, Finset.sum_range_add, Finset.sum_range_succ, sum_blocks f w nb]

/-- The accumulation a grid of eight contraction steps performs, from zero: after the step `n`, zero plus the first
    `n + 1` block sums. Adding the next block sum extends it by one block. -/
theorem acc_step (g : ℕ → EReal) (n : ℕ) :
    (0 + ∑ b ∈ Finset.range (n + 1), g b) + g (n + 1) = 0 + ∑ b ∈ Finset.range (n + 1 + 1), g b := by
  rw [Finset.sum_range_succ g (n + 1), add_assoc]

theorem acc_first (g : ℕ → EReal) : (0 : EReal) + g 0 = 0 + ∑ b ∈ Finset.range (0 + 1), g b := by
  rw [Finset.sum_range_one]

end QLinear

end
-- ==== Proof.LibStackPair.lean ====
/-
  Two pieces of unit extent joined along the last axis — `jnp.stack([a, b], axis=-1)` as it prints, a
  `concatenate` of two arrays whose last axis has size one — read at an index: coordinate 0 on the joined axis reads
  the first piece, coordinate 1 the second, both at the same leading coordinates.  Stated for rank 2 ([n, 1] twice
  into [n, 2]) and for rank 3 ([n, m, 1] twice into [n, m, 2]).
-/
import Idealize.ShloMosaic.Lib.Pipeline.Value
import Idealize.ShloMosaic.Lib.ValueIdx

noncomputable section

namespace LibStackPair

open Idealize.ShloMosaic Idealize.ShloMosaic.ValueIdx

/-- [n, 1] and [n, 1] joined into [n, 2], read at (p, q). -/
theorem stack2_apply {α : Type} {n : ℕ} (x₁ x₂ : (⟨2, ![n, 1]⟩ : Shape).Idx → α)
    (h : Shape.Concatenates [(⟨2, ![n, 1]⟩ : Shape), (⟨2, ![n, 1]⟩ : Shape)] (⟨2, ![n, 2]⟩ : Shape) (1 : Fin 2))
    (p : Fin n) (q : Fin 2) :
    concatenate (⟨2, ![n, 2]⟩ : Shape) (1 : Fin 2) [⟨(⟨2, ![n, 1]⟩ : Shape), x₁⟩, ⟨(⟨2, ![n, 1]⟩ : Shape), x₂⟩] h (ix2 p q)
      = if q.val = 0 then x₁ (ix2 p (0 : Fin 1)) else x₂ (ix2 p (0 : Fin 1)) := by
  have hq : q.val < 2 := q.isLt
  by_cases h0 : q.val = 0
  · rw [if_pos h0]
    exact concatenate_pair_apply_left (1 : Fin 2) x₁ x₂ h (ix2 p q) rfl (ix2 p (0 : Fin 1)) (fun b => match b with
      | ⟨0, _⟩ => rfl
      | ⟨1, _⟩ => by show 0 = q.val; omega)
  · rw [if_neg h0]
    exact concatenate_pair_apply_right (1 : Fin 2) x₁ x₂ h (ix2 p q) rfl rfl (ix2 p (0 : Fin 1)) (fun b hb => match b with
      | ⟨0, _⟩ => rfl
      | ⟨1, _⟩ => absurd rfl hb) (by show 0 + 1 = q.val; omega)

/-- [n, m, 1] and [n, m, 1] joined into [n, m, 2], read at (p, r, q). -/
theorem stack3_apply {α : Type} {n m : ℕ} (x₁ x₂ : (⟨3, ![n, m, 1]⟩ : Shape).Idx → α)
    (h : Shape.Concatenates [(⟨3, ![n, m, 1]⟩ : Shape), (⟨3, ![n, m, 1]⟩ : Shape)] (⟨3, ![n, m, 2]⟩ : Shape) (2 : Fin 3))
    (p : Fin n) (r : Fin m) (q : Fin 2) :
    concatenate (⟨3, ![n, m, 2]⟩ : Shape) (2 : Fin 3) [⟨(⟨3, ![n, m, 1]⟩ : Shape), x₁⟩, ⟨(⟨3, ![n, m, 1]⟩ : Shape), x₂⟩] h (ix3 p r q)
      = if q.val = 0 then x₁ (ix3 p r (0 : Fin 1)) else x₂ (ix3 p r (0 : Fin 1)) := by
  have hq : q.val < 2 := q.isLt
  by_cases h0 : q.val = 0
  · rw [if_pos h0]
    exact concatenate_pair_apply_left (2 : Fin 3) x₁ x₂ h (ix3 p r q) rfl (ix3 p r (0 : Fin 1)) (fun b => match b with
      | ⟨0, _⟩ => rfl
      | ⟨1, _⟩ => rfl
      | ⟨2, _⟩ => by show 0 = q.val; omega)
  · rw [if_neg h0]
    exact concatenate_pair_apply_right (2 : Fin 3) x₁ x₂ h (ix3 p r q) rfl rfl (ix3 p r (0 : Fin 1)) (fun b hb => match b with
      | ⟨0, _⟩ => rfl
      | ⟨1, _⟩ => rfl
      | ⟨2, _⟩ => absurd rfl hb) (by show 0 + 1 = q.val; omega)

end LibStackPair

end
-- ==== Proof.RefValue.lean ====
/-
  The reference computes the layer of Spec.lean.

  Its dequantised weight at (o, k) is read down the chain of its host operations: the two reshapes and the group
  reshape keep the row-major position `o * 4096 + k`; the position's half `o * 2048 + k / 2` names the packed word and
  its parity `k % 2` the field (the stack of the low and the high fields, flattened); the position's group
  `o * 32 + k / 128` names the scale and the offset.  The contraction is the host's `dot_general`, a sum over the 4096
  columns, and the bias is broadcast along the last axis.
-/
import proofs.«421509_j24721831756581_1_alg».proof.Proof.Gen.ReferenceIdeal.Read
import proofs.«421509_j24721831756581_1_alg».proof.Proof.Spec
import proofs.«421509_j24721831756581_1_alg».proof.Proof.LibStackPair

noncomputable section

namespace Cert.ReferenceIdeal.RefValue

open Cert.ReferenceIdeal Cert.ReferenceIdeal.Read Idealize.ShloMosaic Idealize.ShloMosaic.ValueIdx QLinear

/-- The flattened stack of fields at position `f`: the field of parity `f % 2` of word `f / 2`. -/
theorem fields_apply (P : SP.Idx → BitVec 32) (i : S16777216.Idx) :
    val_main_v9 (F := Ideal) P i = nib (rd1 0#32 P ((i 0).val / 2)) (i 0).val := by
  rw [val_main_v9_apply]
  unfold val_main_v8
  have hi : (i 0).val < 16777216 := (i 0).isLt
  have e : idx_main_v9 i = (ix2 (⟨(i 0).val / 2, by omega⟩ : Fin 8388608) (⟨(i 0).val % 2, by omega⟩ : Fin 2) : S8388608x2.Idx) :=
    funext fun a => match a with
      | ⟨0, _⟩ => rfl
      | ⟨1, _⟩ => rfl
  rw [e, LibStackPair.stack2_apply]
  unfold nib
  show (if (i 0).val % 2 = 0 then _ else _) = _
  by_cases h0 : (i 0).val % 2 = 0
  · rw [if_pos h0, if_pos h0, val_main_v6_apply, val_main_v1_apply, val_main_v0_apply, val_main_c_apply, rd1_eq 0#32 P]
    rfl
  · rw [if_neg h0, if_neg h0, val_main_v7_apply, val_main_v5_apply, val_main_v3_apply, val_main_v4_apply, val_main_c_1_apply,
      val_main_v2_apply, val_main_c_0_apply, rd1_eq 0#32 P, shrsi_unit .host .vector]
    rfl

/-- The reference's weight matrix is the dequantised `W`. -/
theorem weight_apply (P : SP.Idx → BitVec 32) (SC OF : SG.Idx → EReal) (j : S4096x4096.Idx) :
    val_main_v19 (F := Ideal) P SC OF j = wgt P SC OF (j 0).val (j 1).val := by
  have h0 : (j 0).val < 4096 := (j 0).isLt
  have h1 : (j 1).val < 4096 := (j 1).isLt
  rw [val_main_v19_apply, val_main_v18_apply, val_main_v17_apply, val_main_v14_apply, val_main_v16_apply, val_main_v15_apply,
    val_main_v13_apply, val_main_v12_apply, val_main_v11_apply, val_main_v10_apply, fields_apply, rd1_eq 0 SC, rd1_eq 0 OF]
  unfold wgt field
  have ef : ((idx_main_v11 (idx_main_v18 (idx_main_v19 j))) 0).val = (j 0).val * 4096 + (j 1).val := by
    show ((j 0).val * 4096 + (j 1).val) / 128 * 128 + ((j 0).val * 4096 + (j 1).val) % 128 = _
    omega
  have eg : ((idx_main_v12 (idx_main_v13 (idx_main_v18 (idx_main_v19 j)))) 0).val = (j 0).val * 32 + (j 1).val / 128 := by
    show ((j 0).val * 4096 + (j 1).val) / 128 = _
    omega
  have eg' : ((idx_main_v15 (idx_main_v16 (idx_main_v18 (idx_main_v19 j)))) 0).val = (j 0).val * 32 + (j 1).val / 128 := by
    show ((j 0).val * 4096 + (j 1).val) / 128 = _
    omega
  rw [ef, eg, show ((j 0).val * 4096 + (j 1).val) / 2 = (j 0).val * 2048 + (j 1).val / 2 from by omega,
    nib_congr _ (show ((j 0).val * 4096 + (j 1).val) % 2 = (j 1).val % 2 from by omega)]
  rfl

/-- The reference's result is the layer. -/
theorem result_eq (X : SX.Idx → EReal) (P : SP.Idx → BitVec 32) (SC OF : SG.Idx → EReal) (B : SB.Idx → EReal) :
    val_main_v23 (F := Ideal) X P SC OF B = dense X P SC OF B := by
  funext i
  rw [val_main_v23_apply, val_main_v20_apply, val_main_v22_apply, val_main_v21_apply, rd1_eq 0 B]
  unfold dense
  rw [Finset.sum_range (fun k => rd3 0 X (i 0).val (i 1).val k * wgt P SC OF (i 2).val k)]
  show (∑ k : Fin 4096, _) + _ = _
  refine congrArg₂ (· + ·) (Finset.sum_congr rfl fun k _ => ?_) rfl
  rw [weight_apply, rd3_eq 0 X]

end Cert.ReferenceIdeal.RefValue

end
-- ==== Proof.Pieces.lean ====
/-
  What one grid step of the kernel leaves behind, case by case, as values.

  The kernel walks a grid of (row block, column block, contraction block).  Its scratch accumulator holds the
  running partial product of the current (row block, column block) pair.  At a step it forms the dequantised
  weight block, multiplies the activation block with it, and adds the product to the accumulator:
    first contraction block:  the accumulator is reset to zero, so it ends at `0 + product`;
    any later block:          it ends at `previous + product`;
    last contraction block:   besides, the output block is written as `accumulator + bias`.
  The product is the payload `k0_pay4` of the packed block, the four scale columns and the four offset columns
  the step uses (columns `4 * kb .. 4 * kb + 3` of the 32 a row has), and the activation block.
-/
import proofs.«421509_j24721831756581_1_alg».proof.Proof.Gen.KernelIdeal.Frame
import Idealize.ShloMosaic.Lib.Pipeline.Value
import Idealize.ShloMosaic.Lib.Tactic

noncomputable section

namespace Cert.KernelIdeal.Step

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- The four columns of a 32-column scale (or offset) block that the step at grid point `i` reads. -/
abbrev cols (i : grid0.Coords) (x : Vec F S1024x32 .f32) : Vec F S1024x4 .f32 :=
  View.ld x (Rect.unit (s := S1024x32) (k0_off1 i) S1024x4.size (k0_off1_inb i))

/-- The step's product: activation block times dequantised weight block. -/
abbrev prod (i : grid0.Coords) (x0 : Vec F S1024x512 .f32) (x1 : Vec F S1024x256 .i32) (x2 x3 : Vec F S1024x32 .f32) :
    FVec F S1024x1024 .f32 :=
  k0_pay4 x1 (cols i x2) (cols i x3) x0

/-- A later contraction block: the accumulator gains the product. -/
theorem acc_B (c : Dev nD) (i : grid0.Coords) (arg3 : Memref sig .tc .vmem S1024x512 .f32) (harg3 : arg3.IsWhole) (arg4 : Memref sig .tc .vmem S1024x256 .i32) (harg4 : arg4.IsWhole) (arg5 : Memref sig .tc .vmem S1024x32 .f32) (harg5 : arg5.IsWhole) (arg6 : Memref sig .tc .vmem S1024x32 .f32) (harg6 : arg6.IsWhole) (arg7 : Memref sig .tc .vmem S1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i) (x0 : Vec F S1024x512 .f32) (x1 : Vec F S1024x256 .i32) (x2 : Vec F S1024x32 .f32) (x3 : Vec F S1024x32 .f32) (x4 : Vec F S1024 .f32) (xs0 : Vec F S1024x1024 .f32) :
    sout0_B_0 c i arg3 harg3 arg4 harg4 arg5 harg5 arg6 harg6 arg7 harg7 arg8 harg8 arg9 harg9 hc0 hc1 x0 x1 x2 x3 x4 xs0 = k0_pay1 xs0 (prod i x0 x1 x2 x3) := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz2]
  simp only [View.readAt_eq_ld, harg3.read_unread, harg4.read_unread, harg5.read_unread, harg6.read_unread, harg9.read_unread,
    View.ld_unit_zero (S := S1024x1024) hz2, View.ld_unit_zero (S := S1024x512) hz2, View.ld_unit_zero (S := S1024x256) hz2]
  rfl

/-- The first contraction block: the accumulator is reset, then gains the product. -/
theorem acc_A (c : Dev nD) (i : grid0.Coords) (arg3 : Memref sig .tc .vmem S1024x512 .f32) (harg3 : arg3.IsWhole) (arg4 : Memref sig .tc .vmem S1024x256 .i32) (harg4 : arg4.IsWhole) (arg5 : Memref sig .tc .vmem S1024x32 .f32) (harg5 : arg5.IsWhole) (arg6 : Memref sig .tc .vmem S1024x32 .f32) (harg6 : arg6.IsWhole) (arg7 : Memref sig .tc .vmem S1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i) (x0 : Vec F S1024x512 .f32) (x1 : Vec F S1024x256 .i32) (x2 : Vec F S1024x32 .f32) (x3 : Vec F S1024x32 .f32) (x4 : Vec F S1024 .f32) :
    sout0_A_0 c i arg3 harg3 arg4 harg4 arg5 harg5 arg6 harg6 arg7 harg7 arg8 harg8 arg9 harg9 hc0 hc1 x0 x1 x2 x3 x4 = k0_pay1 (k0_pay3 (F := F)) (prod i x0 x1 x2 x3) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz2]
  simp only [View.readAt_eq_ld, harg3.read_unread, harg4.read_unread, harg5.read_unread, harg6.read_unread, harg9.read_unread,
    View.readCov_unit_zero (S := S1024x1024) _ hz2,
    View.ld_unit_zero (S := S1024x1024) hz2, View.ld_unit_zero (S := S1024x512) hz2, View.ld_unit_zero (S := S1024x256) hz2]
  rfl

/-- The last contraction block: the accumulator gains the product as at any later block, -/
theorem acc_C (c : Dev nD) (i : grid0.Coords) (arg3 : Memref sig .tc .vmem S1024x512 .f32) (harg3 : arg3.IsWhole) (arg4 : Memref sig .tc .vmem S1024x256 .i32) (harg4 : arg4.IsWhole) (arg5 : Memref sig .tc .vmem S1024x32 .f32) (harg5 : arg5.IsWhole) (arg6 : Memref sig .tc .vmem S1024x32 .f32) (harg6 : arg6.IsWhole) (arg7 : Memref sig .tc .vmem S1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (x0 : Vec F S1024x512 .f32) (x1 : Vec F S1024x256 .i32) (x2 : Vec F S1024x32 .f32) (x3 : Vec F S1024x32 .f32) (x4 : Vec F S1024 .f32) (xs0 : Vec F S1024x1024 .f32) :
    sout0_C_0 c i arg3 harg3 arg4 harg4 arg5 harg5 arg6 harg6 arg7 harg7 arg8 harg8 arg9 harg9 hc0 hc1 x0 x1 x2 x3 x4 xs0 = k0_pay1 xs0 (prod i x0 x1 x2 x3) := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz2]
  simp only [View.readAt_eq_ld, harg3.read_unread, harg4.read_unread, harg5.read_unread, harg6.read_unread, harg9.read_unread,
    View.ld_unit_zero (S := S1024x1024) hz2, View.ld_unit_zero (S := S1024x512) hz2, View.ld_unit_zero (S := S1024x256) hz2]
  rfl

/-- and the output block is the new accumulator plus the bias block. -/
theorem out_C (c : Dev nD) (i : grid0.Coords) (arg3 : Memref sig .tc .vmem S1024x512 .f32) (harg3 : arg3.IsWhole) (arg4 : Memref sig .tc .vmem S1024x256 .i32) (harg4 : arg4.IsWhole) (arg5 : Memref sig .tc .vmem S1024x32 .f32) (harg5 : arg5.IsWhole) (arg6 : Memref sig .tc .vmem S1024x32 .f32) (harg6 : arg6.IsWhole) (arg7 : Memref sig .tc .vmem S1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (x0 : Vec F S1024x512 .f32) (x1 : Vec F S1024x256 .i32) (x2 : Vec F S1024x32 .f32) (x3 : Vec F S1024x32 .f32) (x4 : Vec F S1024 .f32) (xs0 : Vec F S1024x1024 .f32) :
    out0_C_5 c i arg3 harg3 arg4 harg4 arg5 harg5 arg6 harg6 arg7 harg7 arg8 harg8 arg9 harg9 hc0 hc1 x0 x1 x2 x3 x4 xs0 = k0_pay2 (k0_pay1 xs0 (prod i x0 x1 x2 x3)) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz2]
  simp only [View.readAt_eq_ld, harg3.read_unread, harg4.read_unread, harg5.read_unread, harg6.read_unread, harg7.read_unread,
    harg9.read_unread, View.readCov_unit_zero (S := S1024x1024) _ hz2,
    View.ld_unit_zero (S := S1024x1024) hz2, View.ld_unit_zero (S := S1024x512) hz2, View.ld_unit_zero (S := S1024x256) hz2,
    View.ld_unit_zero (S := S1024) hz1]
  rfl

end Cert.KernelIdeal.Step

end
-- ==== Proof.Block.lean ====
/-
  One grid step's product, entry by entry, over the extended reals.

  The dequantised weight block has 1024 rows (output columns of the layer) and 512 columns (one contraction block).
  Column `k` of row `n` is the 4-bit field of parity `k % 2` in packed word `(n, k / 2)` of the packed block, times
  the scale in column `k / 128` of the four scale columns, plus the offset in the same column: the stack of low and
  high fields is flattened pairwise, and each scale and offset is repeated 128 times along the row.
  The product at (r, n) is the sum over the 512 columns of activation (r, k) times that weight (n, k): the matrix unit
  contracts the second axis of both operands into a zero accumulator, and the narrowing of both operands to bf16 is
  the identity on the extended reals.
-/
import proofs.«421509_j24721831756581_1_alg».proof.Proof.Gen.KernelIdeal.Skeleton
import proofs.«421509_j24721831756581_1_alg».proof.Proof.Spec
import proofs.«421509_j24721831756581_1_alg».proof.Proof.LibStackPair
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen
open Idealize.ShloMosaic Idealize.ShloMosaic.ValueIdx QLinear

/-! ## The two layouts -/

/-- Two [1024, 256] arrays stacked on a new last axis and flattened to [1024, 512]: column `k` reads the first at
    `k / 2` when `k` is even and the second at `k / 2` when `k` is odd. -/
theorem interleave_apply {α : Type} (d : α) (lo hi : S1024x256.Idx → α)
    (h2 : S1024x256.ShapeCasts S1024x256x1) (h2' : S1024x256.ShapeCasts S1024x256x1)
    (h3 : Shape.Concatenates [S1024x256x1, S1024x256x1] S1024x256x2 2) (h4 : S1024x256x2.ShapeCasts S1024x512)
    (n : Fin 1024) (k : Fin 512) :
    shapeCast S1024x512 (concatenate S1024x256x2 2
        [⟨S1024x256x1, shapeCast S1024x256x1 lo h2⟩, ⟨S1024x256x1, shapeCast S1024x256x1 hi h2'⟩] h3) h4 (ix2 n k)
      = if k.val % 2 = 0 then rd2 d lo n.val (k.val / 2)
        else rd2 d hi n.val (k.val / 2) := by
  have hn : n.val < 1024 := n.isLt
  have hk : k.val < 512 := k.isLt
  rw [shapeCast_apply _ h4 (ix2 n k) (ix3 n (⟨k.val / 2, by omega⟩ : Fin 256) (⟨k.val % 2, by omega⟩ : Fin 2))
    (by rw [Shape.rowMajor_val_three, Shape.rowMajor_val_two]
        show (n.val * 256 + k.val / 2) * 2 + k.val % 2 = n.val * 512 + k.val
        omega)]
  rw [LibStackPair.stack3_apply]
  show (if k.val % 2 = 0 then _ else _) = _
  have e1 : ∀ (x : S1024x256.Idx → α) (h : S1024x256.ShapeCasts S1024x256x1),
      shapeCast S1024x256x1 x h (ix3 n (⟨k.val / 2, by omega⟩ : Fin 256) (0 : Fin 1))
        = rd2 d x n.val (k.val / 2) := fun x h => by
    rw [shapeCast_apply x h _ (ix2 n (⟨k.val / 2, by omega⟩ : Fin 256))
      (by rw [Shape.rowMajor_val_three, Shape.rowMajor_val_two]
          show n.val * 256 + k.val / 2 = (n.val * 256 + k.val / 2) * 1 + 0
          omega)]
    exact rd2_eq _ x _
  rw [e1 lo h2, e1 hi h2']

/-- A [1024, 4] array whose every entry is repeated 128 times along the row, flattened to [1024, 512]: column `k`
    reads column `k / 128`. -/
theorem spread_apply {α : Type} (d : α) (v : S1024x4.Idx → α)
    (ha : S1024x4.ShapeCasts S1024x4) (hb : S1024x4.ShapeCasts S1024x4x1) (hc : S1024x4x1.ShapeCasts S1024x4x1)
    (hd : S1024x4x1.Broadcasts S1024x4x128) (he : S1024x4x128.ShapeCasts S1024x512) (n : Fin 1024) (k : Fin 512) :
    shapeCast S1024x512 (broadcastTo S1024x4x128
        (shapeCast S1024x4x1 (shapeCast S1024x4x1 (shapeCast S1024x4 v ha) hb) hc) hd) he (ix2 n k)
      = rd2 d v n.val (k.val / 128) := by
  have hn : n.val < 1024 := n.isLt
  have hk : k.val < 512 := k.isLt
  rw [shapeCast_apply _ he (ix2 n k) (ix3 n (⟨k.val / 128, by omega⟩ : Fin 4) (⟨k.val % 128, by omega⟩ : Fin 128))
    (by rw [Shape.rowMajor_val_three, Shape.rowMajor_val_two]
        show (n.val * 4 + k.val / 128) * 128 + k.val % 128 = n.val * 512 + k.val
        omega)]
  rw [broadcastTo_apply _ hd _ (ix3 n (⟨k.val / 128, by omega⟩ : Fin 4) (0 : Fin 1)) (fun a => match a with
    | ⟨0, _⟩ => by show n.val = if (1024 : ℕ) = 1 then 0 else n.val; rw [if_neg (by decide)]
    | ⟨1, _⟩ => by show k.val / 128 = if (4 : ℕ) = 1 then 0 else k.val / 128; rw [if_neg (by decide)]
    | ⟨2, _⟩ => by show 0 = if (1 : ℕ) = 1 then 0 else k.val % 128; rw [if_pos rfl])]
  rw [shapeCast_self, shapeCast_self,
    shapeCast_apply v hb _ (ix2 n (⟨k.val / 128, by omega⟩ : Fin 4))
      (by rw [Shape.rowMajor_val_three, Shape.rowMajor_val_two]
          show n.val * 4 + k.val / 128 = (n.val * 4 + k.val / 128) * 1 + 0
          omega)]
  exact rd2_eq d v _

/-! ## The product -/

theorem lhs_prod_0 (j : S1024x1024.Idx) (q : dot_S1024x512_S1024x512_S1024x1024_1_1_0_0_n_n.contr.Idx) :
    (dot_S1024x512_S1024x512_S1024x1024_1_1_0_0_n_n.lhsIdx j q 0).val = (j 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_prod_1 (j : S1024x1024.Idx) (q : dot_S1024x512_S1024x512_S1024x1024_1_1_0_0_n_n.contr.Idx) :
    (dot_S1024x512_S1024x512_S1024x1024_1_1_0_0_n_n.lhsIdx j q 1).val = (q ⟨0, by decide⟩).val :=
  dot_S1024x512_S1024x512_S1024x1024_1_1_0_0_n_n.lhsIdx_val_of_single rfl j q
theorem rhs_prod_0 (j : S1024x1024.Idx) (q : dot_S1024x512_S1024x512_S1024x1024_1_1_0_0_n_n.contr.Idx) :
    (dot_S1024x512_S1024x512_S1024x1024_1_1_0_0_n_n.rhsIdx j q 0).val = (j 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_prod_1 (j : S1024x1024.Idx) (q : dot_S1024x512_S1024x512_S1024x1024_1_1_0_0_n_n.contr.Idx) :
    (dot_S1024x512_S1024x512_S1024x1024_1_1_0_0_n_n.rhsIdx j q 1).val = (q ⟨0, by decide⟩).val :=
  dot_S1024x512_S1024x512_S1024x1024_1_1_0_0_n_n.rhsIdx_val_of_single rfl j q

/-- The dequantised weight of a step, from the packed block and the step's scale and offset columns. -/
def wblk (v5 : Vec Ideal S1024x256 .i32) (v20 v23 : Vec Ideal S1024x4 .f32) (n k : ℕ) : EReal :=
  field (rd2 0#32 v5 n (k / 2)) k * rd2 0 v20 n (k / 128) + rd2 0 v23 n (k / 128)

/-- The step's product at (r, n): the sum over the block's 512 columns of activation times dequantised weight. -/
theorem prod_apply (v5 : Vec Ideal S1024x256 .i32) (v20 v23 : Vec Ideal S1024x4 .f32) (v36 : Vec Ideal S1024x512 .f32)
    (r n : Fin 1024) :
    k0_pay4 (F := Ideal) v5 v20 v23 v36 (ix2 r n)
      = ∑ k ∈ Finset.range 512, rd2 0 v36 r.val k * wblk v5 v20 v23 n.val k := by
  have hn : n.val < 1024 := n.isLt
  unfold k0_pay4
  refine (Ideal.matmul_constant_zero_apply dot_S1024x512_S1024x512_S1024x1024_1_1_0_0_n_n none _ _ (ix2 r n)).trans ?_
  rw [← Equiv.sum_comp (contrEquiv1 dot_S1024x512_S1024x512_S1024x1024_1_1_0_0_n_n 512 rfl rfl).symm, Finset.sum_range]
  refine Finset.sum_congr rfl fun k _ => ?_
  have hk2 : k.val < 512 := k.isLt
  have hk := contrEquiv1_symm_val dot_S1024x512_S1024x512_S1024x1024_1_1_0_0_n_n 512 rfl rfl k
  have el : dot_S1024x512_S1024x512_S1024x1024_1_1_0_0_n_n.lhsIdx (ix2 r n) ((contrEquiv1 dot_S1024x512_S1024x512_S1024x1024_1_1_0_0_n_n 512 rfl rfl).symm k) = ix2 r k := funext fun a => Fin.ext (by
    match a with
    | ⟨0, _⟩ => exact lhs_prod_0 _ _
    | ⟨1, _⟩ => exact (lhs_prod_1 _ _).trans hk)
  have er : dot_S1024x512_S1024x512_S1024x1024_1_1_0_0_n_n.rhsIdx (ix2 r n) ((contrEquiv1 dot_S1024x512_S1024x512_S1024x1024_1_1_0_0_n_n 512 rfl rfl).symm k) = ix2 n k := funext fun a => Fin.ext (by
    match a with
    | ⟨0, _⟩ => exact rhs_prod_0 _ _
    | ⟨1, _⟩ => exact (rhs_prod_1 _ _).trans hk)
  rw [el, er, truncf_apply, truncf_apply, addf_apply, mulf_apply, interleave_apply 0, spread_apply 0, spread_apply 0,
    shapeCast_self, rd2_eq 0 v36]
  unfold wblk field nib
  have e : ∀ (u : IVec S1024x256 32), rd2 (0 : EReal) (sitofp (F := Ideal) .f32 u) n.val (k.val / 2)
      = FloatOps.sitofp (F := Ideal) .f32 (rd2 0#32 u n.val (k.val / 2)) := fun u => by
    unfold rd2
    rw [dif_pos (show n.val < 1024 ∧ k.val / 2 < 256 from ⟨hn, by omega⟩), dif_pos (show n.val < 1024 ∧ k.val / 2 < 256 from ⟨hn, by omega⟩)]
    rfl
  have e' : ∀ (u w : IVec S1024x256 32) (g : BitVec 32 → BitVec 32) (hg : ∀ y, u y = g (w y)),
      rd2 0#32 u n.val (k.val / 2) = g (rd2 0#32 w n.val (k.val / 2)) := fun u w g hg => by
    unfold rd2
    rw [dif_pos (show n.val < 1024 ∧ k.val / 2 < 256 from ⟨hn, by omega⟩), dif_pos (show n.val < 1024 ∧ k.val / 2 < 256 from ⟨hn, by omega⟩)]
    exact hg _
  rw [e, e, shapeCast_self,
    e' (andi v5 (broadcast S1024x256 15#32)) v5 loNib (fun _ => rfl),
    e' (andi (shrsi v5 (broadcast S1024x256 4#32)) (broadcast S1024x256 15#32)) v5 hiNib (fun _ => rfl)]
  by_cases h0 : k.val % 2 = 0
  · rw [if_pos h0, if_pos h0]
  · rw [if_neg h0, if_neg h0]

/-- The accumulator's update adds entry by entry. -/
theorem upd_apply (a : Vec Ideal S1024x1024 .f32) (b : FVec Ideal S1024x1024 .f32) (j : S1024x1024.Idx) :
    k0_pay1 (F := Ideal) a b j = a j + b j := by
  unfold k0_pay1
  rw [shapeCast_self]
  rfl

/-- The reset stores zero. -/
theorem reset_apply (j : S1024x1024.Idx) : k0_pay3 (F := Ideal) j = 0 := by
  unfold k0_pay3
  rw [shapeCast_self]
  exact Ideal.ofBits_zero_f32

/-- The output block adds the bias of the column to every row. -/
theorem bias_apply (a : Vec Ideal S1024x1024 .f32) (b : Vec Ideal S1024 .f32) (r n : Fin 1024) :
    k0_pay2 (F := Ideal) a b (ix2 r n) = a (ix2 r n) + rd1 0 b n.val := by
  unfold k0_pay2
  rw [addf_apply]
  refine congrArg (a (ix2 r n) + ·) ?_
  rw [broadcastTo_apply _ _ (ix2 r n) (ix2 (0 : Fin 1) n) (fun x => match x with
    | ⟨0, _⟩ => by show 0 = if (1 : ℕ) = 1 then 0 else r.val; rw [if_pos rfl]
    | ⟨1, _⟩ => by show n.val = if (1024 : ℕ) = 1 then 0 else n.val; rw [if_neg (by decide)]),
    shapeCast_apply b _ _ (ix1 n) (by rw [Shape.rowMajor_val_one, Shape.rowMajor_val_two]; show n.val = 0 * 1024 + n.val; omega)]
  exact rd1_eq 0 b _

end Cert.KernelIdeal.Block

end
-- ==== Proof.Arrays.lean ====
/-
  The arrays the pallas_call works on, and the blocks a grid point sees of them.

  Before the call the host reshapes the arguments: the activations [4, 2048, 4096] to rows [8192, 4096] (row
  `b * 2048 + s`), the packed words [8388608] to [4096, 2048] (word `(o, j)` is word `o * 2048 + j`), the scales and
  offsets [131072] to [4096, 32] (group `(o, g)` is group `o * 32 + g`); the bias is passed as it is.
  Grid point `t` of the 8 x 4 x 8 grid has row block `t / 32`, column block `t / 8 % 4` and contraction block `t % 8`:
  it sees rows `1024 * (t / 32) ..` and columns `512 * (t % 8) ..` of the activations, rows `1024 * (t / 8 % 4) ..` and
  words `256 * (t % 8) ..` of the packed matrix, rows `1024 * (t / 8 % 4) ..` of the scales, the offsets and the bias.
-/
import proofs.«421509_j24721831756581_1_alg».proof.Proof.Gen.KernelIdeal.Frame
import proofs.«421509_j24721831756581_1_alg».proof.Proof.Pieces
import proofs.«421509_j24721831756581_1_alg».proof.Proof.Spec
import Idealize.ShloMosaic.Lib.Pipeline.Value
import Idealize.ShloMosaic.Lib.StableHlo.Run
import Idealize.ShloMosaic.Lib.ValueIdx

noncomputable section

namespace Cert.KernelIdeal.Arrays

open Cert.KernelIdeal Cert.KernelIdeal.Gen
open Idealize.ShloMosaic Idealize.ShloMosaic.TcCoe Idealize.SL.Sem Idealize.ShloMosaic.ValueIdx QLinear

variable (m : (ℓ : Loc nD τ sig) → Buf (Elt Ideal) ℓ)

/-! ## The arguments and the arrays the call is given -/

abbrev argX (c : Dev nD) : SX.Idx → EReal := m ((c : Thread nD τ).loc main_arg0)
abbrev argP (c : Dev nD) : SP.Idx → BitVec 32 := m ((c : Thread nD τ).loc main_arg1)
abbrev argS (c : Dev nD) : SG.Idx → EReal := m ((c : Thread nD τ).loc main_arg2)
abbrev argO (c : Dev nD) : SG.Idx → EReal := m ((c : Thread nD τ).loc main_arg3)
abbrev argB (c : Dev nD) : SB.Idx → EReal := m ((c : Thread nD τ).loc main_arg4)

abbrev xarr (c : Dev nD) : Vec Ideal S8192x4096 .f32 := V m c main_v0
abbrev parr (c : Dev nD) : Vec Ideal S4096x2048 .i32 := V m c main_v1
abbrev sarr (c : Dev nD) : Vec Ideal S4096x32 .f32 := V m c main_v2
abbrev oarr (c : Dev nD) : Vec Ideal S4096x32 .f32 := V m c main_v3
abbrev barr (c : Dev nD) : Vec Ideal S4096 .f32 := V m c main_arg4

theorem xarr_eq (c : Dev nD) : xarr m c = shapeCast S8192x4096 (argX m c) Facts₀.shapeCasts_S4x2048x4096_S8192x4096 := by
  show StableHlo.after hostOps0 (fun b => m (c, b)) (Proc.devRef .tc main_v0) = _
  after_results
  rfl
theorem parr_eq (c : Dev nD) : parr m c = shapeCast S4096x2048 (argP m c) Facts₀.shapeCasts_S8388608_S4096x2048 := by
  show StableHlo.after hostOps0 (fun b => m (c, b)) (Proc.devRef .tc main_v1) = _
  after_results
  rfl
theorem sarr_eq (c : Dev nD) : sarr m c = shapeCast S4096x32 (argS m c) Facts₀.shapeCasts_S131072_S4096x32 := by
  show StableHlo.after hostOps0 (fun b => m (c, b)) (Proc.devRef .tc main_v2) = _
  after_results
  rfl
theorem oarr_eq (c : Dev nD) : oarr m c = shapeCast S4096x32 (argO m c) Facts₀.shapeCasts_S131072_S4096x32 := by
  show StableHlo.after hostOps0 (fun b => m (c, b)) (Proc.devRef .tc main_v3) = _
  after_results
  rfl
theorem barr_eq (c : Dev nD) : barr m c = argB m c := V_main_arg4 m c

/-- Row `R` of the activation rows is row `R % 2048` of batch `R / 2048`. -/
theorem xarr_rd (c : Dev nD) (R K : ℕ) (hR : R < 8192) (hK : K < 4096) :
    rd2 0 (xarr m c) R K = rd3 0 (argX m c) (R / 2048) (R % 2048) K := by
  rw [xarr_eq]
  unfold rd2 rd3
  rw [dif_pos (show R < 8192 ∧ K < 4096 from ⟨hR, hK⟩), dif_pos (show R / 2048 < 4 ∧ R % 2048 < 2048 ∧ K < 4096 from ⟨by omega, by omega, hK⟩)]
  exact shapeCast_apply _ _ _ _ (by
    rw [Shape.rowMajor_val_three, Shape.rowMajor_val_two]
    show (R / 2048 * 2048 + R % 2048) * 4096 + K = R * 4096 + K
    omega)

/-- Word `(N, J)` of the packed matrix is word `N * 2048 + J`. -/
theorem parr_rd (c : Dev nD) (N J : ℕ) (hN : N < 4096) (hJ : J < 2048) :
    rd2 0#32 (parr m c) N J = rd1 0#32 (argP m c) (N * 2048 + J) := by
  rw [parr_eq]
  unfold rd2 rd1
  rw [dif_pos (show N < 4096 ∧ J < 2048 from ⟨hN, hJ⟩), dif_pos (show N * 2048 + J < 8388608 from by omega)]
  exact shapeCast_apply _ _ _ _ (by
    rw [Shape.rowMajor_val_one, Shape.rowMajor_val_two]
    show N * 2048 + J = N * 2048 + J
    rfl)

/-- Scale `(N, G)` is scale `N * 32 + G`; -/
theorem sarr_rd (c : Dev nD) (N G : ℕ) (hN : N < 4096) (hG : G < 32) :
    rd2 0 (sarr m c) N G = rd1 0 (argS m c) (N * 32 + G) := by
  rw [sarr_eq]
  unfold rd2 rd1
  rw [dif_pos (show N < 4096 ∧ G < 32 from ⟨hN, hG⟩), dif_pos (show N * 32 + G < 131072 from by omega)]
  exact shapeCast_apply _ _ _ _ (by
    rw [Shape.rowMajor_val_one, Shape.rowMajor_val_two]
    show N * 32 + G = N * 32 + G
    rfl)

/-- and the offsets likewise. -/
theorem oarr_rd (c : Dev nD) (N G : ℕ) (hN : N < 4096) (hG : G < 32) :
    rd2 0 (oarr m c) N G = rd1 0 (argO m c) (N * 32 + G) := by
  rw [oarr_eq]
  unfold rd2 rd1
  rw [dif_pos (show N < 4096 ∧ G < 32 from ⟨hN, hG⟩), dif_pos (show N * 32 + G < 131072 from by omega)]
  exact shapeCast_apply _ _ _ _ (by
    rw [Shape.rowMajor_val_one, Shape.rowMajor_val_two]
    show N * 32 + G = N * 32 + G
    rfl)

/-! ## The blocks of a grid point -/

abbrev xblk (c : Dev nD) (t : Fin cfg0.N) : Vec Ideal S1024x512 .f32 := iblk m c 0 t
abbrev pblk (c : Dev nD) (t : Fin cfg0.N) : Vec Ideal S1024x256 .i32 := iblk m c 1 t
abbrev sblk (c : Dev nD) (t : Fin cfg0.N) : Vec Ideal S1024x32 .f32 := iblk m c 2 t
abbrev oblk (c : Dev nD) (t : Fin cfg0.N) : Vec Ideal S1024x32 .f32 := iblk m c 3 t
abbrev bblk (c : Dev nD) (t : Fin cfg0.N) : Vec Ideal S1024 .f32 := iblk m c 4 t

/-- The block indices of every window, decided over the grid's 256 points. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 8 % 4 ∧ win0_2.index t (1 : Fin 2) = 0
    ∧ win0_3.index t (0 : Fin 2) = t.val / 8 % 4 ∧ win0_3.index t (1 : Fin 2) = 0
    ∧ win0_4.index t (0 : Fin 1) = t.val / 8 % 4
    ∧ win0_5.index t (0 : Fin 2) = t.val / 32 ∧ win0_5.index t (1 : Fin 2) = t.val / 8 % 4
    ∧ (grid0.coords t (2 : Fin 3)).val = t.val % 8 :=
  (by decide +kernel : ∀ t : Fin grid0.N, _)

theorem xblk_rd (c : Dev nD) (t : Fin cfg0.N) (r k : ℕ) (hr : r < 1024) (hk : k < 512) :
    rd2 0 (xblk m c t) r k = rd2 0 (xarr m c) (t.val / 32 * 1024 + r) (t.val % 8 * 512 + k) := by
  have ht : t.val < 256 := lt_of_lt_of_eq t.isLt (show cfg0.N = 256 from N_0)
  obtain ⟨e0, e1, -⟩ := idx_facts t
  unfold rd2
  rw [dif_pos (show r < 1024 ∧ k < 512 from ⟨hr, hk⟩),
    dif_pos (show t.val / 32 * 1024 + r < 8192 ∧ t.val % 8 * 512 + k < 4096 from ⟨by omega, by omega⟩)]
  show iblk m c 0 t _ = V m c main_v0 _
  unfold iblk
  rw [View.read_apply]
  show V m c main_v0 _ = V m c main_v0 _
  congr 1
  funext a
  apply Fin.ext
  match a with
  | ⟨0, _⟩ => show win0_0.index t (0 : Fin 2) * 1024 + 1 * r = t.val / 32 * 1024 + r; rw [e0]; omega
  | ⟨1, _⟩ => show win0_0.index t (1 : Fin 2) * 512 + 1 * k = t.val % 8 * 512 + k; rw [e1]; omega

theorem pblk_rd (c : Dev nD) (t : Fin cfg0.N) (n j : ℕ) (hn : n < 1024) (hj : j < 256) :
    rd2 0#32 (pblk m c t) n j = rd2 0#32 (parr m c) (t.val / 8 % 4 * 1024 + n) (t.val % 8 * 256 + j) := by
  have ht : t.val < 256 := lt_of_lt_of_eq t.isLt (show cfg0.N = 256 from N_0)
  obtain ⟨-, -, e0, e1, -⟩ := idx_facts t
  unfold rd2
  rw [dif_pos (show n < 1024 ∧ j < 256 from ⟨hn, hj⟩),
    dif_pos (show t.val / 8 % 4 * 1024 + n < 4096 ∧ t.val % 8 * 256 + j < 2048 from ⟨by omega, by omega⟩)]
  show iblk m c 1 t _ = V m c main_v1 _
  unfold iblk
  rw [View.read_apply]
  show V m c main_v1 _ = V m c main_v1 _
  congr 1
  funext a
  apply Fin.ext
  match a with
  | ⟨0, _⟩ => show win0_1.index t (0 : Fin 2) * 1024 + 1 * n = t.val / 8 % 4 * 1024 + n; rw [e0]; omega
  | ⟨1, _⟩ => show win0_1.index t (1 : Fin 2) * 256 + 1 * j = t.val % 8 * 256 + j; rw [e1]; omega

theorem sblk_rd (c : Dev nD) (t : Fin cfg0.N) (n g : ℕ) (hn : n < 1024) (hg : g < 32) :
    rd2 0 (sblk m c t) n g = rd2 0 (sarr m c) (t.val / 8 % 4 * 1024 + n) g := by
  have ht : t.val < 256 := lt_of_lt_of_eq t.isLt (show cfg0.N = 256 from N_0)
  obtain ⟨-, -, -, -, e0, e1, -⟩ := idx_facts t
  unfold rd2
  rw [dif_pos (show n < 1024 ∧ g < 32 from ⟨hn, hg⟩),
    dif_pos (show t.val / 8 % 4 * 1024 + n < 4096 ∧ g < 32 from ⟨by omega, hg⟩)]
  show iblk m c 2 t _ = V m c main_v2 _
  unfold iblk
  rw [View.read_apply]
  show V m c main_v2 _ = V m c main_v2 _
  congr 1
  funext a
  apply Fin.ext
  match a with
  | ⟨0, _⟩ => show win0_2.index t (0 : Fin 2) * 1024 + 1 * n = t.val / 8 % 4 * 1024 + n; rw [e0]; omega
  | ⟨1, _⟩ => show win0_2.index t (1 : Fin 2) * 32 + 1 * g = g; rw [e1]; omega

theorem oblk_rd (c : Dev nD) (t : Fin cfg0.N) (n g : ℕ) (hn : n < 1024) (hg : g < 32) :
    rd2 0 (oblk m c t) n g = rd2 0 (oarr m c) (t.val / 8 % 4 * 1024 + n) g := by
  have ht : t.val < 256 := lt_of_lt_of_eq t.isLt (show cfg0.N = 256 from N_0)
  obtain ⟨-, -, -, -, -, -, e0, e1, -⟩ := idx_facts t
  unfold rd2
  rw [dif_pos (show n < 1024 ∧ g < 32 from ⟨hn, hg⟩),
    dif_pos (show t.val / 8 % 4 * 1024 + n < 4096 ∧ g < 32 from ⟨by omega, hg⟩)]
  show iblk m c 3 t _ = V m c main_v3 _
  unfold iblk
  rw [View.read_apply]
  show V m c main_v3 _ = V m c main_v3 _
  congr 1
  funext a
  apply Fin.ext
  match a with
  | ⟨0, _⟩ => show win0_3.index t (0 : Fin 2) * 1024 + 1 * n = t.val / 8 % 4 * 1024 + n; rw [e0]; omega
  | ⟨1, _⟩ => show win0_3.index t (1 : Fin 2) * 32 + 1 * g = g; rw [e1]; omega

theorem bblk_rd (c : Dev nD) (t : Fin cfg0.N) (n : ℕ) (hn : n < 1024) :
    rd1 0 (bblk m c t) n = rd1 0 (barr m c) (t.val / 8 % 4 * 1024 + n) := by
  have ht : t.val < 256 := lt_of_lt_of_eq t.isLt (show cfg0.N = 256 from N_0)
  obtain ⟨-, -, -, -, -, -, -, -, e0, -⟩ := idx_facts t
  unfold rd1
  rw [dif_pos (show n < 1024 from hn), dif_pos (show t.val / 8 % 4 * 1024 + n < 4096 from by omega)]
  show iblk m c 4 t _ = V m c main_arg4 _
  unfold iblk
  rw [View.read_apply]
  show V m c main_arg4 _ = V m c main_arg4 _
  congr 1
  funext a
  apply Fin.ext
  match a with
  | ⟨0, _⟩ => show win0_4.index t (0 : Fin 1) * 1024 + 1 * n = t.val / 8 % 4 * 1024 + n; rw [e0]; omega

/-- The four columns a step reads of a 32-column block are columns `4 * kb ..`. -/
theorem cols_rd (i : grid0.Coords) (x : Vec Ideal S1024x32 .f32) (n g : ℕ) (hn : n < 1024) (hg : g < 4) :
    rd2 0 (Step.cols i x) n g = rd2 0 x n (4 * (i 2).val + g) := by
  have hi : (i 2).val < 8 := (i 2).isLt
  have e := k0_off1_eq i
  unfold rd2
  rw [dif_pos (show n < 1024 ∧ g < 4 from ⟨hn, hg⟩), dif_pos (show n < 1024 ∧ 4 * (i 2).val + g < 32 from ⟨hn, by omega⟩)]
  show x _ = x _
  congr 1
  funext a
  apply Fin.ext
  match a with
  | ⟨0, _⟩ => show k0_off1 i 0 + 1 * n = n; rw [e]; show 0 + 1 * n = n; omega
  | ⟨1, _⟩ => show k0_off1 i 1 + 1 * g = 4 * (i 2).val + g; rw [e]; show 4 * (i 2).val + 1 * g = _; omega

end Cert.KernelIdeal.Arrays

end
-- ==== Proof.Accumulate.lean ====
/-
  The accumulator over the contraction blocks, and the output block.

  Write `S b (R, N)` for the block sum `∑ k < 512, x (R, 512 b + k) * W (N, 512 b + k)`, with `W` the dequantised weight
  read off the reshaped arrays.  At grid point `t` (row block `t / 32`, column block `t / 8 % 4`, contraction block
  `t % 8`) the step's product at (r, n) is `S (t % 8)` at row `1024 (t / 32) + r` and column `1024 (t / 8 % 4) + n`.
  So, by induction on the point, the accumulator after point `t` holds `0 + ∑ b ≤ t % 8, S b` there: the first
  contraction block starts from zero, and every later one adds its block sum to what the point before left, which
  belongs to the same row and column block.  At the last contraction block the output block is that sum of all eight
  block sums plus the bias of the column.
-/
import proofs.«421509_j24721831756581_1_alg».proof.Proof.Gen.KernelIdeal.Frame
import proofs.«421509_j24721831756581_1_alg».proof.Proof.Pieces
import proofs.«421509_j24721831756581_1_alg».proof.Proof.Block
import proofs.«421509_j24721831756581_1_alg».proof.Proof.Arrays
import proofs.«421509_j24721831756581_1_alg».proof.Proof.Spec

noncomputable section

namespace Cert.KernelIdeal.Acc

open Cert.KernelIdeal Cert.KernelIdeal.Gen Cert.KernelIdeal.Arrays
open Idealize.ShloMosaic Idealize.ShloMosaic.TcCoe Idealize.SL.Sem Idealize.ShloMosaic.ValueIdx QLinear

variable (m : (ℓ : Loc nD τ sig) → Buf (Elt Ideal) ℓ)

/-- The dequantised weight `W (N, K)` read off the reshaped arrays. -/
def wgt2 (P : S4096x2048.Idx → BitVec 32) (S O : S4096x32.Idx → EReal) (N K : ℕ) : EReal :=
  field (rd2 0#32 P N (K / 2)) K * rd2 0 S N (K / 128) + rd2 0 O N (K / 128)

/-- The block sum `S b (R, N)`. -/
def bsum (X : S8192x4096.Idx → EReal) (P : S4096x2048.Idx → BitVec 32) (S O : S4096x32.Idx → EReal) (R N b : ℕ) : EReal :=
  ∑ k ∈ Finset.range 512, rd2 0 X R (b * 512 + k) * wgt2 P S O N (b * 512 + k)

/-- The block sums of the arrays the call is given. -/
abbrev bs (c : Dev nD) (R N b : ℕ) : EReal := bsum (xarr m c) (parr m c) (sarr m c) (oarr m c) R N b

/-- The product of the step at point `t` is the block sum of its contraction block at its rows and columns. -/
theorem prod_point (c : Dev nD) (t : Fin cfg0.N) (r n : Fin 1024) :
    Step.prod (grid0.coords t) (xblk m c t) (pblk m c t) (sblk m c t) (oblk m c t) (ix2 r n)
      = bs m c (t.val / 32 * 1024 + r.val) (t.val / 8 % 4 * 1024 + n.val) (t.val % 8) := by
  have hr : r.val < 1024 := r.isLt
  have hn : n.val < 1024 := n.isLt
  obtain ⟨-, -, -, -, -, -, -, -, -, -, -, e2⟩ := idx_facts t
  refine (Block.prod_apply _ _ _ _ r n).trans ?_
  show _ = bsum (xarr m c) (parr m c) (sarr m c) (oarr m c) _ _ _
  unfold bsum
  refine Finset.sum_congr rfl fun k hk => ?_
  have hk' : k < 512 := Finset.mem_range.mp hk
  unfold Block.wblk wgt2
  rw [xblk_rd m c t r.val k hr hk', pblk_rd m c t n.val (k / 2) hn (by omega),
    cols_rd (grid0.coords t) (sblk m c t) n.val (k / 128) hn (by omega),
    cols_rd (grid0.coords t) (oblk m c t) n.val (k / 128) hn (by omega),
    sblk_rd m c t n.val _ hn (by omega), oblk_rd m c t n.val _ hn (by omega), e2,
    show (t.val % 8 * 512 + k) / 2 = t.val % 8 * 256 + k / 2 from by omega,
    show (t.val % 8 * 512 + k) / 128 = 4 * (t.val % 8) + k / 128 from by omega,
    field_congr _ (show (t.val % 8 * 512 + k) % 2 = k % 2 from by omega)]

/-- The first contraction block: zero plus its block sum. -/
theorem acc_first_point (c : Dev nD) (t : Fin cfg0.N) (h0 : t.val % 8 = 0) (r n : Fin 1024) :
    (outsAt0 m c t.val t.isLt).2 (ix2 r n)
      = 0 + bs m c (t.val / 32 * 1024 + r.val) (t.val / 8 % 4 * 1024 + n.val) (t.val % 8) := by
  have h1 : ¬t.val % 8 = 7 := by omega
  rw [outsAt0_A m c t h0 h1]
  dsimp only
  refine (congrFun (Step.acc_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) (ix2 r n)).trans ?_
  rw [Block.upd_apply, Block.reset_apply]
  exact congrArg (0 + ·) (prod_point m c t r n)

/-- A later contraction block: what the point before left plus its block sum. -/
theorem acc_next_point (c : Dev nD) (t : Fin cfg0.N) (h0 : ¬t.val % 8 = 0) (r n : Fin 1024) :
    (outsAt0 m c t.val t.isLt).2 (ix2 r n)
      = (outsAt0 m c (t.val - 1) (Nat.lt_of_le_of_lt (Nat.sub_le _ _) t.isLt)).2 (ix2 r n)
        + bs m c (t.val / 32 * 1024 + r.val) (t.val / 8 % 4 * 1024 + n.val) (t.val % 8) := by
  by_cases h1 : t.val % 8 = 7
  · rw [outsAt0_C m c t h0 h1]
    dsimp only
    refine (congrFun (Step.acc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) (ix2 r n)).trans ?_
    rw [Block.upd_apply]
    exact congrArg (_ + ·) (prod_point m c t r n)
  · rw [outsAt0_B m c t h0 h1]
    dsimp only
    refine (congrFun (Step.acc_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) (ix2 r n)).trans ?_
    rw [Block.upd_apply]
    exact congrArg (_ + ·) (prod_point m c t r n)

/-- THE ACCUMULATOR after point `p`: zero plus the block sums of contraction blocks `0 .. p % 8`, at the point's row
    and column. -/
theorem acc_eq (c : Dev nD) : ∀ (p : ℕ) (h : p < cfg0.N) (r n : Fin 1024) (R N j : ℕ),
    R = p / 32 * 1024 + r.val → N = p / 8 % 4 * 1024 + n.val → j = p % 8 →
    (outsAt0 m c p h).2 (ix2 r n) = 0 + ∑ b ∈ Finset.range (j + 1), bs m c R N b
  | 0, h, r, n, R, N, j, hR, hN, hj => by
    subst hR hN hj
    rw [acc_first_point m c ⟨0, h⟩ rfl r n]
    exact acc_first _
  | p + 1, h, r, n, R, N, j, hR, hN, hj => by
    subst hR hN hj
    by_cases h0 : (p + 1) % 8 = 0
    · rw [acc_first_point m c ⟨p + 1, h⟩ h0 r n]
      show 0 + bs m c _ _ ((p + 1) % 8) = _
      rw [h0]
      exact acc_first _
    · rw [acc_next_point m c ⟨p + 1, h⟩ h0 r n]
      show (outsAt0 m c p _).2 (ix2 r n) + bs m c _ _ ((p + 1) % 8) = _
      rw [acc_eq c p (Nat.lt_of_succ_lt h) r n ((p + 1) / 32 * 1024 + r.val) ((p + 1) / 8 % 4 * 1024 + n.val) (p % 8)
        (by omega) (by omega) rfl,
        show (p + 1) % 8 = p % 8 + 1 from by omega]
      exact acc_step _ _

/-- THE OUTPUT BLOCK at a last contraction block: all eight block sums, plus the bias of the column. -/
theorem out_eq (c : Dev nD) (t : Fin cfg0.N) (h7 : t.val % 8 = 7) (r n : Fin 1024) :
    (outsAt0 m c t.val t.isLt).1 (ix2 r n)
      = (0 + ∑ b ∈ Finset.range 8, bs m c (t.val / 32 * 1024 + r.val) (t.val / 8 % 4 * 1024 + n.val) b)
        + rd1 0 (barr m c) (t.val / 8 % 4 * 1024 + n.val) := by
  have h0 : ¬t.val % 8 = 0 := by omega
  have hn : n.val < 1024 := n.isLt
  have hacc := acc_eq m c t.val t.isLt r n _ _ 7 rfl rfl h7.symm
  rw [acc_next_point m c t h0 r n] at hacc
  rw [outsAt0_C m c t h0 h7]
  dsimp only
  refine (congrFun (Step.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h7) (iblk m c 0 t) (iblk m c 1 t) (iblk m c 2 t) (iblk m c 3 t) (iblk m c 4 t) (outsAt0 m c (t.val - 1) (Nat.lt_of_le_of_lt (Nat.sub_le _ _) t.isLt)).2) (ix2 r n)).trans ?_
  rw [Block.bias_apply, Block.upd_apply, prod_point m c t r n, hacc]
  exact congrArg (_ + ·) (bblk_rd m c t n.val hn)

end Cert.KernelIdeal.Acc

end
-- ==== Proof.KernelValue.lean ====
/-
  What the kernel's program ends holding.

  The pallas_call's result array [8192, 4096] is written back one 1024 x 1024 block per (row block, column block)
  pair, at the pair's last contraction block, and those blocks tile the array.  The block written at point `t` holds, at
  (r, n), the eight block sums of row `1024 (t / 32) + r` and column `1024 (t / 8 % 4) + n` plus the column's bias: so
  the whole array is ONE function of its index (R, N), the row's eight block sums against column N plus bias N.
  Regrouping the eight sums of 512 terms into one sum of 4096 terms, and reading the reshaped arrays back as the
  arguments, gives the layer of Spec.lean at row `R = 2048 b + s`; the host's final reshape to [4, 2048, 4096] reads
  entry (b, s, o) there.
-/
import proofs.«421509_j24721831756581_1_alg».proof.Proof.Gen.KernelIdeal.Frame
import proofs.«421509_j24721831756581_1_alg».proof.Proof.Accumulate
import proofs.«421509_j24721831756581_1_alg».proof.Proof.Arrays
import proofs.«421509_j24721831756581_1_alg».proof.Proof.Spec
import Idealize.ShloMosaic.Lib.Pipeline.Value
import Idealize.ShloMosaic.Lib.StableHlo.Run

noncomputable section

namespace Cert.KernelIdeal.Final

open Cert.KernelIdeal Cert.KernelIdeal.Gen Cert.KernelIdeal.Arrays Cert.KernelIdeal.Acc
open Idealize.ShloMosaic Idealize.ShloMosaic.TcCoe Idealize.SL.Sem Idealize.ShloMosaic.ValueIdx QLinear
open Idealize.ShloMosaic.Pipeline (Dat)

variable (m : (ℓ : Loc nD τ sig) → Buf (Elt Ideal) ℓ) (ρ : Dev nD → PrngReg)

/-- The call's result array as one function of its index. -/
def outArr (c : Dev nD) : Vec Ideal S8192x4096 .f32 := fun j =>
  (0 + ∑ b ∈ Finset.range 8, bs m c (j 0).val (j 1).val b) + rd1 0 (barr m c) (j 1).val

/-- The output block of a last contraction block, at any index of the block. -/
theorem out_at (c : Dev nD) (t : Fin cfg0.N) (h7 : t.val % 8 = 7) (j : S1024x1024.Idx) :
    (outsAt0 m c t.val t.isLt).1 j
      = (0 + ∑ b ∈ Finset.range 8, bs m c (t.val / 32 * 1024 + (j 0).val) (t.val / 8 % 4 * 1024 + (j 1).val) b)
        + rd1 0 (barr m c) (t.val / 8 % 4 * 1024 + (j 1).val) := by
  rw [eq_ix2 j]
  exact out_eq m c t h7 (j 0) (j 1)

/-- What a point writes back is its block of the result array. -/
theorem flushed_eq (c : Dev nD) (t : Fin cfg0.N) (hf : (cfg0.win 5).flush t = true) :
    (dats m 0 c).flushed 5 t = ((cfg0.win 5).blk t).view.read (Elt Ideal) (outArr m c) := by
  have h7 : t.val % 8 = 7 := (flush0_5 t).mp hf
  obtain ⟨-, -, -, -, -, -, -, -, -, e0, e1, -⟩ := idx_facts t
  show (cfg0.win 5).cut (grid0.coords t) ((dats m 0 c).after 5 t) = _
  rw [after0_5]
  funext j
  refine (out_at m c t h7 j).trans ?_
  show _ = (0 + ∑ b ∈ Finset.range 8, bs m c (win0_5.index t (0 : Fin 2) * 1024 + 1 * (j 0).val) (win0_5.index t (1 : Fin 2) * 1024 + 1 * (j 1).val) b)
      + rd1 0 (barr m c) (win0_5.index t (1 : Fin 2) * 1024 + 1 * (j 1).val)
  rw [e0, e1, Nat.one_mul, Nat.one_mul]

/-- An index of the array is in point `t`'s block iff each coordinate is in the block's range. -/
theorem mem_blk (t : Fin cfg0.N) (i : S8192x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v4).slice (win0_5.rect t)).set ↔ _
  rw [View.set_slice_whole, Rect.mem_set_unit]
  exact Iff.rfl

/-- The result array after the run. -/
theorem final (c : Dev nD) : (dats m 0 c).arrAt 5 cfg0.N = outArr m c :=
  (dats m 0 c).arrAt_eq_of_cover 5 (outArr m c) (flushed_eq m c) fun i => by
    have hi0 : (i 0).val < 8192 := (i 0).isLt
    have hi1 : (i 1).val < 4096 := (i 1).isLt
    have hN : cfg0.N = 256 := N_0
    let t : Fin cfg0.N := ⟨(i 0).val / 1024 * 32 + (i 1).val / 1024 * 8 + 7, by rw [hN]; omega⟩
    have htv : t.val = (i 0).val / 1024 * 32 + (i 1).val / 1024 * 8 + 7 := rfl
    obtain ⟨-, -, -, -, -, -, -, -, -, e0, e1, -⟩ := idx_facts t
    refine ⟨t, (flush0_5 t).mpr (by rw [htv]; omega), ?_⟩
    rw [mem_blk]
    intro a
    match a with
    | ⟨0, _⟩ =>
      show win0_5.index t (0 : Fin 2) * 1024 ≤ (i 0).val ∧ (i 0).val < win0_5.index t (0 : Fin 2) * 1024 + 1024
      rw [e0, htv]; omega
    | ⟨1, _⟩ =>
      show win0_5.index t (1 : Fin 2) * 1024 ≤ (i 1).val ∧ (i 1).val < win0_5.index t (1 : Fin 2) * 1024 + 1024
      rw [e1, htv]; omega

/-- The dequantised weight read off the reshaped arrays is the weight of the arguments. -/
theorem wgt2_eq (c : Dev nD) (N K : ℕ) (hN : N < 4096) (hK : K < 4096) :
    wgt2 (parr m c) (sarr m c) (oarr m c) N K = wgt (argP m c) (argS m c) (argO m c) N K := by
  unfold wgt2 wgt
  rw [parr_rd m c N (K / 2) hN (by omega), sarr_rd m c N (K / 128) hN (by omega), oarr_rd m c N (K / 128) hN (by omega)]

/-- The result array at (R, N) is the layer at batch `R / 2048`, row `R % 2048`, column `N`. -/
theorem outArr_rd (c : Dev nD) (R N : ℕ) (hR : R < 8192) (hN : N < 4096) :
    rd2 0 (outArr m c) R N
      = (∑ k ∈ Finset.range 4096, rd3 0 (argX m c) (R / 2048) (R % 2048) k * wgt (argP m c) (argS m c) (argO m c) N k)
        + rd1 0 (argB m c) N := by
  unfold rd2
  rw [dif_pos (show R < 8192 ∧ N < 4096 from ⟨hR, hN⟩)]
  show (0 + ∑ b ∈ Finset.range 8, bs m c R N b) + rd1 0 (barr m c) N = _
  rw [zero_add, barr_eq, show Finset.range 4096 = Finset.range (8 * 512) from rfl, sum_blocks _ 512 8]
  refine congrArg (· + rd1 0 (argB m c) N) (Finset.sum_congr rfl fun b hb => ?_)
  have hb' : b < 8 := Finset.mem_range.mp hb
  show bsum (xarr m c) (parr m c) (sarr m c) (oarr m c) R N b = _
  unfold bsum
  refine Finset.sum_congr rfl fun k hk => ?_
  have hk' : k < 512 := Finset.mem_range.mp hk
  rw [xarr_rd m c R (b * 512 + k) hR (by omega), wgt2_eq m c N (b * 512 + k) hN (by omega)]

/-- The program's result: the layer. -/
theorem result_eq (c : Dev nD) :
    shapeCast S4x2048x4096 (outArr m c) Facts₀.shapeCasts_S8192x4096_S4x2048x4096
      = dense (argX m c) (argP m c) (argS m c) (argO m c) (argB m c) := by
  funext i
  have h0 : (i 0).val < 4 := (i 0).isLt
  have h1 : (i 1).val < 2048 := (i 1).isLt
  have h2 : (i 2).val < 4096 := (i 2).isLt
  rw [shapeCast_apply (outArr m c) _ i (ix2 (⟨(i 0).val * 2048 + (i 1).val, by omega⟩ : Fin 8192) (i 2))
    (by rw [Shape.rowMajor_val_two, Shape.rowMajor_val_three]
        show ((i 0).val * 2048 + (i 1).val) * 4096 + (i 2).val = ((i 0).val * 2048 + (i 1).val) * 4096 + (i 2).val
        rfl),
    rd2_eq 0 (outArr m c)]
  show rd2 0 (outArr m c) ((i 0).val * 2048 + (i 1).val) (i 2).val = _
  rw [outArr_rd m c _ _ (by omega) h2]
  unfold dense
  rw [show ((i 0).val * 2048 + (i 1).val) / 2048 = (i 0).val from by omega,
    show ((i 0).val * 2048 + (i 1).val) % 2048 = (i 1).val from by omega]

/-- The host's reshape after the call reads the call's result array. -/
theorem tail_eq (c : Dev nD) :
    Pipeline.afterTail₀ cfgs (dats m) 0 (V0 m) [hostOps1] c main_v5
      = dense (argX m c) (argP m c) (argS m c) (argO m c) (argB m c) := by
  rw [← result_eq m c]
  unfold Pipeline.afterTail₀
  show StableHlo.after hostOps1 _ (Proc.devRef .tc main_v5) = _
  after_results
  exact congrArg (fun a => shapeCast S4x2048x4096 a Facts₀.shapeCasts_S8192x4096_S4x2048x4096)
    ((Pipeline.withArrays_arr spec0 launch0.win.arr_inj c _ _ 5).trans (final m c))

/-- THE RUN, read: the result at the layer of the arguments, the arguments unchanged. -/
theorem run : θ_run defs (onTc (τ := τ) (main (F := Ideal))) ⟨m, fun _ => 0, ρ⟩ fun r => ∀ c : Dev nD,
      r.2.mem ((c.tc : Thread nD τ).loc main_v5) = dense (argX m c) (argP m c) (argS m c) (argO m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.KernelIdeal.Final

end
-- ==== Proof.lean ====
/-
  The quantised linear layer: the Pallas kernel against its jnp reference, over the extended reals.

  Both programs compute `out (b, s, o) = (∑ k < 4096, x (b, s, k) * W (o, k)) + bias o` with the dequantised weight
  `W (o, k) = field (o, k) * scale (o * 32 + k / 128) + offset (o * 32 + k / 128)` (Spec.lean).  The reference does it
  with whole arrays (RefValue.lean).  The kernel tiles the product 8 x 4 x 8: for each 1024 x 1024 output block it
  accumulates eight partial products over 512-column contraction blocks in a scratch buffer, dequantising each
  weight block on the fly, and adds the bias when it writes the block back (Pieces.lean, Block.lean, Arrays.lean,
  Accumulate.lean, KernelValue.lean).  The two agree because a sum of 4096 terms is the sum of its eight blocks of 512
  terms, whatever the terms: no finiteness of the inputs is used.  The narrowing of the matrix unit's operands to
  bf16 is the identity on the extended reals, and the ideal pass rewrote nothing, so `preserves` is trivial.
-/
import proofs.«421509_j24721831756581_1_alg».proof.Defs
import proofs.«421509_j24721831756581_1_alg».proof.Proof.Gen.Kernel
import proofs.«421509_j24721831756581_1_alg».proof.Proof.Gen.Kernel.Skeleton
import proofs.«421509_j24721831756581_1_alg».proof.Proof.Gen.Kernel.Launch
import proofs.«421509_j24721831756581_1_alg».proof.Proof.Gen.Kernel.Points
import proofs.«421509_j24721831756581_1_alg».proof.Proof.Gen.Kernel.Frame
import proofs.«421509_j24721831756581_1_alg».proof.Proof.Gen.KernelIdeal
import proofs.«421509_j24721831756581_1_alg».proof.Proof.Gen.KernelIdeal.Skeleton
import proofs.«421509_j24721831756581_1_alg».proof.Proof.Gen.KernelIdeal.Launch
import proofs.«421509_j24721831756581_1_alg».proof.Proof.Gen.KernelIdeal.Points
import proofs.«421509_j24721831756581_1_alg».proof.Proof.Gen.KernelIdeal.Frame
import proofs.«421509_j24721831756581_1_alg».proof.Proof.Gen.ReferenceIdeal
import proofs.«421509_j24721831756581_1_alg».proof.Proof.Gen.ReferenceIdeal.Run
import proofs.«421509_j24721831756581_1_alg».proof.Proof.Gen.ReferenceIdeal.Read
import proofs.«421509_j24721831756581_1_alg».proof.Proof.Gen.Pre_finite_inputs
import proofs.«421509_j24721831756581_1_alg».proof.Proof.RefValue
import proofs.«421509_j24721831756581_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's program ends at the layer of its arguments (KernelValue.lean), the reference's at the layer of its
    arguments (RefValue.lean); the arguments agree. -/
theorem algebraic : Cert.algebraic_KernelIdeal_ReferenceIdeal := by
  intro m ρ m' ρ' _ hagree
  refine ⟨fun c => QLinear.dense (Cert.KernelIdeal.Arrays.argX m c) (Cert.KernelIdeal.Arrays.argP m c)
      (Cert.KernelIdeal.Arrays.argS m c) (Cert.KernelIdeal.Arrays.argO m c) (Cert.KernelIdeal.Arrays.argB m c),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2.1, (hagree c).2.2.2.1,
    (hagree c).2.2.2.2]
  exact Cert.ReferenceIdeal.RefValue.result_eq _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
